-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x33554432 : Shape := ⟨2, ![2, 33554432]⟩
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : IVec S2x33554432 32) (main_arg1 : FVec F S33554432 .f32) (main_arg2 : IVec S33554432 1) : IVec S_ 1 :=
  let main_v0 : FVec F S33554432 .f32 := Host.absf main_arg1
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S2x33554432 : Shape := ⟨2, ![2, 33554432]⟩
abbrev S33554432 : Shape := ⟨1, ![33554432]⟩
abbrev S262144x128 : Shape := ⟨2, ![262144, 128]⟩
abbrev S8192x128 : Shape := ⟨2, ![8192, 128]⟩

abbrev nBuf : Space → Nat
  | .hbm => 8
  | .vmem => 6
  | .smem => 0
  | _ => 0

abbrev bufTy : (tb : Table) → Fin (tcTables nBuf tb) → BufTy
  | .hbm, ⟨0, _⟩ => ⟨S2x33554432, .i32⟩
  | .hbm, ⟨1, _⟩ => ⟨S33554432, .f32⟩
  | .hbm, ⟨2, _⟩ => ⟨S33554432, .i1⟩
  | .hbm, ⟨3, _⟩ => ⟨S262144x128, .f32⟩
  | .hbm, ⟨4, _⟩ => ⟨S262144x128, .i1⟩
  | .hbm, ⟨5, _⟩ => ⟨S262144x128, .i32⟩
  | .hbm, ⟨6, _⟩ => ⟨S262144x128, .f32⟩
  | .hbm, ⟨7, _⟩ => ⟨S33554432, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S8192x128, .f32⟩
  | .local _ .vmem, ⟨5, _⟩ => ⟨S8192x128, .f32⟩
  | _, _ => ⟨S2x33554432, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S33554432_S262144x128 : S33554432.ShapeCasts S262144x128
  natLt_1_32 : 1 < 32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S262144x128_S33554432 : S262144x128.ShapeCasts S33554432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x33554432 : Shape := ⟨2, ![2, 33554432]⟩
abbrev S33554432 : Shape := ⟨1, ![33554432]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2x33554432, .i32⟩
  | .hbm, ⟨1, _⟩ => ⟨S33554432, .f32⟩
  | .hbm, ⟨2, _⟩ => ⟨S33554432, .i1⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | _, _ => ⟨S2x33554432, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)

variable [Facts₀]

class Facts : Prop extends Facts₀ where

variable [Facts]
-- ==== Proof.KeepRescale.lean ====
/-
  The result both programs compute, as one function of the edge values and the keep flags.

  Every edge keeps its slot. A kept edge (flag bit set) carries its value times the constant c, the f32 word
  0x3F9FFF7D (the rounding of 1 / (1 - 0.2 + 1e-5)); a dropped edge carries the f32 zero word. The same two words
  stand on both sides, so neither is ever evaluated: the function is stated over the float operations themselves,
  at any reading of the floats.

  Two facts about it are all the comparison needs. It is POINTWISE, so relabeling the indices of both arguments
  (a row-major reshape [E] -> [E/128, 128]) relabels the result the same way. And a one-bit flag widened to a
  32-bit word is nonzero exactly when the flag is set, so testing the widened word against zero is reading the flag.
-/
import Idealize.ShloMosaic.PureOps
import Idealize.ShloMosaic.Lib.Pipeline.Value

noncomputable section

namespace Cert.KeepRescale

open Idealize.ShloMosaic

variable {F : FTy → Type} [FloatOps F]

/-- Kept edges rescaled by c, dropped edges zero, slot by slot. -/
def keepRescale {s : Shape} (x : FVec F s .f32) (keep : IVec s 1) : FVec F s .f32 := fun i =>
  Scalar.select (keep i) (FloatOps.mulf (x i) (FloatOps.ofBits .f32 0x3F9FFF7D#32)) (FloatOps.ofBits .f32 0x00000000#32)

/-- Relabeling the slots of the values and of the flags relabels the result: the function looks at one slot at a time. -/
theorem keepRescale_shapeCast {s t : Shape} (x : FVec F s .f32) (keep : IVec s 1) (h : s.ShapeCasts t) :
    keepRescale (shapeCast t x h) (shapeCast t keep h) = shapeCast t (keepRescale x keep) h := rfl

/-- Relabeled and relabeled back, the result is the result over the original slots. -/
theorem shapeCast_keepRescale_shapeCast {s t : Shape} (x : FVec F s .f32) (keep : IVec s 1) (h : s.ShapeCasts t)
    (h' : t.ShapeCasts s) :
    shapeCast s (keepRescale (shapeCast t x h) (shapeCast t keep h)) h' = keepRescale x keep := by
  rw [keepRescale_shapeCast, shapeCast_shapeCast]

/-- A one-bit flag widened with zeros to 32 bits differs from the zero word exactly when the flag is set. -/
theorem widened_ne_zero (b : BitVec 1) : IntOp.cmpi .ne (b.setWidth 32) 0#32 = b := by
  revert b; decide

end Cert.KeepRescale

end
-- ==== Proof.KernelValue.lean ====
/-
  What the kernel program leaves in its result, read off its frame run.

  The program relabels the E edge values and the E keep flags row-major as [E/128, 128] arrays, widens each flag to a
  32-bit word, and walks the rows in 32 blocks of 8192 rows. At each block the body tests every widened flag against
  zero, multiplies every value by the constant c, selects, and stores the whole block; the three index maps are the
  same map, so the block of values, the block of flags and the block of results at a point sit over the same rows.
  After the walk the result rows are relabeled back to E slots.

  So: what a point writes back is its block of ONE [E/128, 128] array, the common result function of the relabeled
  values and flags (testing a widened flag against zero reads the flag); the 32 blocks tile the rows (row r lies in
  block r / 8192), so the array after the walk IS that function; and relabeling it back gives the common result
  function of the original values and flags, because the function looks at one slot at a time.
-/
import proofs.«106798_j19739669692444_1_alg».proof.Proof.Gen.KernelIdeal.Frame
import proofs.«106798_j19739669692444_1_alg».proof.Proof.KeepRescale
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KeepRescale

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-! ## The arrays the walk reads -/

/-- The edge values as launched. -/
abbrev vals (c : Dev nD) : FVec F S33554432 .f32 := m ((c : Thread nD τ).loc main_arg1)
/-- The keep flags as launched. -/
abbrev flags (c : Dev nD) : IVec S33554432 1 := m ((c : Thread nD τ).loc main_arg2)

/-- The walk finds the values relabeled as rows of 128. -/
theorem rows_vals (c : Dev nD) :
    (V m c main_v0 : S262144x128.Idx → F .f32) = shapeCast S262144x128 (vals m c) shapeCasts_S33554432_S262144x128 := by
  show StableHlo.after hostOps0 (fun b => m (c, b)) (Proc.devRef .tc main_v0) = _
  after_results
  rfl

/-- And the flags relabeled the same way, each widened to a 32-bit word. -/
theorem rows_flags (c : Dev nD) :
    (V m c main_v2 : S262144x128.Idx → BitVec 32)
      = extui 32 (shapeCast S262144x128 (flags m c) shapeCasts_S33554432_S262144x128) natLt_1_32 := by
  show StableHlo.after hostOps0 (fun b => m (c, b)) (Proc.devRef .tc main_v2) = _
  after_results
  rfl

/-! ## One block -/

/-- The body's stored block, slot by slot: the widened flag tested against zero chooses between value times c and zero. -/
theorem block_eq (x0 : Vec F S8192x128 .f32) (x1 : Vec F S8192x128 .i32) :
    k0_pay1 x0 x1 = fun y => Scalar.select (IntOp.cmpi .ne (x1 y) 0#32)
      (FloatOps.mulf (x0 y) (FloatOps.ofBits .f32 0x3F9FFF7D#32)) (FloatOps.ofBits .f32 0x00000000#32) := by
  unfold k0_pay1
  simp only [shapeCast_self]
  rfl

/-- The result rows: the common result function of the relabeled values and flags. -/
abbrev rowsResult (c : Dev nD) : S262144x128.Idx → F .f32 :=
  keepRescale (shapeCast S262144x128 (vals m c) shapeCasts_S33554432_S262144x128)
    (shapeCast S262144x128 (flags m c) shapeCasts_S33554432_S262144x128)

/-- The three index maps are one map: at every point the values' block and the flags' block start at the result block's row. -/
theorem same_rows : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- What point t writes back is its block of the result rows. -/
theorem flushed_eq (c : Dev nD) (t : Fin cfg0.N) :
    (dats m 0 c).flushed 2 t = ((cfg0.win 2).blk t).view.read (Elt F) (rowsResult m c) := by
  show (cfg0.win 2).cut (grid0.coords t) ((dats m 0 c).after 2 t) = _
  rw [after0_2]
  unfold out0_2
  rw [View.canon_unit_zero zero_offsets]
  simp only [View.ld_unit_zero (S := S8192x128) zero_offsets]
  rw [block_eq]
  obtain ⟨e0, e1, e2, e3⟩ := same_rows t
  funext j
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  show Scalar.select (IntOp.cmpi .ne (V m c main_v2 (((cfg0.win 1).blk t).view.emb j)) 0#32)
      (FloatOps.mulf (V m c main_v0 (((cfg0.win 0).blk t).view.emb j)) (FloatOps.ofBits .f32 0x3F9FFF7D#32)) (FloatOps.ofBits .f32 0x00000000#32)
    = rowsResult m c (((cfg0.win 2).blk t).view.emb j)
  rw [h0, h1, rows_vals, rows_flags]
  show Scalar.select (IntOp.cmpi .ne ((shapeCast S262144x128 (flags m c) shapeCasts_S33554432_S262144x128 (((cfg0.win 2).blk t).view.emb j)).setWidth 32) 0#32) _ _ = _
  rw [widened_ne_zero]
  rfl

/-! ## The 32 blocks tile the rows -/

/-- Every block row is some point's: block row q is point q's. -/
theorem block_of_row : ∀ q : Fin 32, ∃ t : Fin cfg0.N, win0_2.index t = ![q.val, 0] :=
  (by decide +kernel : ∀ q : Fin 32, ∃ t : Fin grid0.N, win0_2.index t = ![q.val, 0])

/-- A row index lies in point t's block iff each coordinate lies in the block's range on its axis. -/
theorem mem_block (t : Fin cfg0.N) (i : S262144x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v3).slice (win0_2.rect t)).set ↔ _
  rw [View.set_slice_whole, Rect.mem_set_unit]
  exact Iff.rfl

/-- Row r, lane l lies in the block of point r / 8192. -/
theorem covered (i : S262144x128.Idx) :
    ∃ t : Fin cfg0.N, (cfg0.win 2).flush t = true ∧ i ∈ ((cfg0.win 2).blk t).view.set := by
  have hi0 : (i 0).val < 262144 := (i 0).isLt
  have hi1 : (i 1).val < 128 := (i 1).isLt
  obtain ⟨t, ht⟩ := block_of_row ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- So after the walk the result rows hold the common result function of the relabeled values and flags. -/
theorem rows_final (c : Dev nD) : (dats m 0 c).arrAt 2 cfg0.N = rowsResult m c :=
  (dats m 0 c).arrAt_eq_of_cover 2 (rowsResult m c) (fun t _ => flushed_eq m c t) covered

/-! ## Relabeled back to E slots -/

/-- The program's second result: the result rows relabeled back, which is the common result function of the values
    and the flags as launched. -/
theorem result_slots (c : Dev nD) :
    (Pipeline.afterTail₀ cfgs (dats m) 0 (V0 m) [hostOps1] c main_v4 : S33554432.Idx → F .f32)
      = keepRescale (vals m c) (flags m c) := by
  unfold Pipeline.afterTail₀
  show StableHlo.after hostOps1 _ (Proc.devRef .tc main_v4) = _
  after_results
  show shapeCast S33554432 (Pipeline.withArrays spec0 c (V0 m c) (fun w => (dats m 0 c).arrAt w cfg0.N) (Proc.devRef .tc (Pipeline.arrRef spec0 2))) shapeCasts_S262144x128_S33554432 = _
  rw [(Pipeline.withArrays_arr spec0 launch0.win.arr_inj c _ _ 2).trans (rows_final m c)]
  exact shapeCast_keepRescale_shapeCast _ _ _ _

/-! ## The run, read -/

/-- Every weakly fair execution of the program terminates with the edge indices as launched, the second result at the
    common result function of the values and flags as launched, and the three arguments unchanged. -/
theorem run : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v4) = keepRescale (vals m c) (flags m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have k0 := ((h c).2 main_arg0 (Pipeline.mem_restRefs_of main_arg0 (by decide) (by decide))).trans (W_main_arg0 m (dats m) c)
    ⟨k0,
      ((h c).2 main_v4 (Pipeline.mem_restRefs_of main_v4 (by decide) (by decide))).trans (result_slots m c),
      k0,
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.ReferenceValue.lean ====
/-
  The reference's result is the kept-and-rescaled function of its arguments.

  The reference multiplies every edge value by the constant c (a scalar broadcast over all E slots), broadcasts the
  zero word the same way, and selects between the two by the keep flag. Read at one slot i, the two broadcasts are
  their scalars, the product is the value at i times c, and the selection is the flag at i choosing between that
  product and zero: the definition of the common result function at i.
-/
import proofs.«106798_j19739669692444_1_alg».proof.Proof.Gen.ReferenceIdeal.Run
import proofs.«106798_j19739669692444_1_alg».proof.Proof.Gen.ReferenceIdeal.Read
import proofs.«106798_j19739669692444_1_alg».proof.Proof.KeepRescale

noncomputable section

namespace Cert.ReferenceIdeal.RefValue

open Cert.ReferenceIdeal Cert.ReferenceIdeal.Gen Idealize.ShloMosaic Cert.KeepRescale

variable {F : FTy → Type} [FloatOps F]

/-- The composed term of the reference's run, slot by slot, is kept edges times c and dropped edges zero. -/
theorem result_eq (x : FVec F S33554432 .f32) (keep : IVec S33554432 1) :
    select keep (mulf x (broadcastInDim S33554432 ![] bcast_S_S33554432 (constant S_ .f32 0x3F9FFF7D#32)))
        (broadcastInDim S33554432 ![] bcast_S_S33554432 (constant S_ .f32 0x00000000#32))
      = keepRescale x keep := by
  rw [Read.val_main_v2_eq]
  funext i
  rw [Read.val_main_v2_apply, Read.val_main_v1_apply, Read.val_main_v0_apply, Read.val_main_cst_apply,
    Read.val_main_call0_v0_apply, Read.val_main_cst_0_apply]
  rfl

end Cert.ReferenceIdeal.RefValue

end
-- ==== Proof.lean ====
/-
  Dropping edges by a keep mask and rescaling the kept ones: the blocked kernel against the one-line reference.

  Both programs return the edge indices untouched and, for the edge values x and keep flags k over E = 2^25 slots,
  the array whose slot i holds x i * c when k i is set and zero otherwise, c the f32 word 0x3F9FFF7D on both sides.

  The reference computes exactly that, slot by slot (Proof/ReferenceValue.lean). The kernel program relabels x and k
  as [E/128, 128] rows, widens the flags to words, walks the rows in 32 blocks testing each widened flag against zero,
  and relabels the result rows back; because the result function looks at one slot at a time, and a widened flag is
  nonzero exactly when the flag is set, it ends at the same function of the same arguments (Proof/KernelValue.lean
  over Proof/KeepRescale.lean). No law of arithmetic is used, so the finiteness of the inputs is never opened: the two
  results are one term once the arguments agree.

  The frames of the two kernel programs are their generated frame runs; the reference's frame is its run with the
  results dropped. The idealization rewrote nothing, so there is nothing for it to preserve.
-/
import proofs.«106798_j19739669692444_1_alg».proof.Defs
import proofs.«106798_j19739669692444_1_alg».proof.Proof.Gen.Kernel
import proofs.«106798_j19739669692444_1_alg».proof.Proof.Gen.Kernel.Frame
import proofs.«106798_j19739669692444_1_alg».proof.Proof.Gen.KernelIdeal
import proofs.«106798_j19739669692444_1_alg».proof.Proof.Gen.KernelIdeal.Frame
import proofs.«106798_j19739669692444_1_alg».proof.Proof.Gen.ReferenceIdeal
import proofs.«106798_j19739669692444_1_alg».proof.Proof.Gen.ReferenceIdeal.Run
import proofs.«106798_j19739669692444_1_alg».proof.Proof.Gen.Pre_finite_inputs
import proofs.«106798_j19739669692444_1_alg».proof.Proof.KernelValue
import proofs.«106798_j19739669692444_1_alg».proof.Proof.ReferenceValue

noncomputable section

namespace Cert.Proof

open Idealize.ShloMosaic Idealize.ShloMosaic.TcCoe Idealize.SL.Sem Cert.KeepRescale

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From arguments that agree both programs end with the edge indices as launched and the kept edges rescaled, the
    dropped ones zero: the kernel by its walk over the rows, the reference slot by slot, at one and the same term. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => keepRescale (Cert.KernelIdeal.KernelValue.vals m c) (Cert.KernelIdeal.KernelValue.flags m c),
    Cert.KernelIdeal.KernelValue.run (F := Ideal) m ρ, ?_⟩
  refine (θ_run Cert.ReferenceIdeal.defs _ _).mono (fun _ h c => ?_) (Cert.ReferenceIdeal.Value.run (F := Ideal) m' ρ')
  obtain ⟨a0, a1, a2⟩ := hagree c
  refine ⟨(h c).1.trans a0, (h c).2.1.trans ?_, (h c).2.2⟩
  rw [Cert.ReferenceIdeal.RefValue.result_eq, a1, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
